-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S16 : Shape := ⟨1, ![16]⟩
abbrev S1024x1024 : Shape := ⟨2, ![1024, 1024]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S16x1024x1024 .f32) (main_arg1 : FVec F S16x1024x1024 .f32) (main_arg2 : IVec S16 32) (main_arg3 : FVec F S1024x1024 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S16x1024x1024 : Shape := ⟨3, ![16, 1024, 1024]⟩
abbrev S16 : Shape := ⟨1, ![16]⟩
abbrev S1024x1024 : Shape := ⟨2, ![1024, 1024]⟩
abbrev S1x512x1024 : Shape := ⟨3, ![1, 512, 1024]⟩
abbrev S1x1024x1024 : Shape := ⟨3, ![1, 1024, 1024]⟩
abbrev S512x1024 : Shape := ⟨2, ![512, 1024]⟩
abbrev S1 : Shape := ⟨1, ![1]⟩
abbrev S512 : Shape := ⟨1, ![512]⟩
abbrev S512x1 : Shape := ⟨2, ![512, 1]⟩

abbrev nBuf : Space → Nat
  | .hbm => 6
  | .vmem => 8
  | .smem => 1
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S1024x1024, .f32⟩
  | .hbm, ⟨3, _⟩ => ⟨S1024x1024, .f32⟩
  | .hbm, ⟨4, _⟩ => ⟨S16x1024x1024, .f32⟩
  | .hbm, ⟨5, _⟩ => ⟨S16x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024x1024, .f32⟩
  | .local _ .vmem, ⟨3, _⟩ => ⟨S1024x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .smem, ⟨0, _⟩ => ⟨S16, .i32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 2], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v8 : Index := Scalar.indexCast arg0
  ![v8.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S1024x1024_S1024x1024_1_0 : S1024x1024.Transposes [1, 0] S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  numel1_S1 : S1.numel = 1
  iota_S512x1024_d1_w32 : S512x1024.Iotas .tc 32 [1]
  reduces_S512x1024_S512 : S512x1024.Reduces [1] S512
  shapeCasts_S512_S512x1 : S512.ShapeCasts S512x1
  broadcasts_S512x1_S512x1024 : S512x1.Broadcasts S512x1024
  shapeCasts_S512x1024_S1x512x1024 : S512x1024.ShapeCasts S1x512x1024
  bitsLt_bf16_f32 : FTy.bits .bf16 < FTy.bits .f32
  dot_S512x1024_S1024x1024_S512x1024_1_0_0_1_n_n_wf : DotDims.WF S512x1024 S1024x1024 S512x1024 [1] [0] [0] [1] [] []
  dot_S512x1024_S1024x1024_S512x1024_1_1_0_0_n_n_wf : DotDims.WF S512x1024 S1024x1024 S512x1024 [1] [1] [0] [0] [] []
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x1024x1024.size a
  hwx0_0 : ∀ i : grid0.Coords, EltTy.bits .f32 = 32 ∨ (Rect.block (s := S16x1024x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x1024x1024.size a
  hwx0_1 : ∀ i : grid0.Coords, EltTy.bits .f32 = 32 ∨ (Rect.block (s := S16x1024x1024) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S16x1024x1024.size a
  hwx0_3 : ∀ i : grid0.Coords, EltTy.bits .f32 = 32 ∨ (Rect.block (s := S16x1024x1024) S1x512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S16x1024x1024.size a
  hwx0_4 : ∀ i : grid0.Coords, EltTy.bits .f32 = 32 ∨ (Rect.block (s := S16x1024x1024) S1x512x1024.size (cc0_transform_4 i) (hinb0_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev spec0_0 : Pipeline.WinSpec sig grid0.rank :=
  Pipeline.WinSpec.ofSpec (Memref.whole main_arg0) S1x512x1024.size reads0_0 false false 2 stage0_0 sem0_0 nbuf0_0 hstage0_0

abbrev spec0_1 : Pipeline.WinSpec sig grid0.rank :=
  Pipeline.WinSpec.ofSpec (Memref.whole main_arg1) S1x1024x1024.size reads0_1 false true 1 stage0_1 sem0_1 nbuf0_1 hstage0_1

abbrev spec0_2 : Pipeline.WinSpec sig grid0.rank :=
  Pipeline.WinSpec.ofSpec (Memref.whole main_v0) S1024x1024.size reads0_2 false true 1 stage0_2 sem0_2 nbuf0_2 hstage0_2

abbrev spec0_3 : Pipeline.WinSpec sig grid0.rank :=
  Pipeline.WinSpec.ofSpec (Memref.whole main_v1_0) S1x512x1024.size reads0_3 true false 2 stage0_3 sem0_3 nbuf0_3 hstage0_3

abbrev spec0_4 : Pipeline.WinSpec sig grid0.rank :=
  Pipeline.WinSpec.ofSpec (Memref.whole main_v1_1) S1x512x1024.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 | 1 => cc0_transform_1 | 2 => cc0_transform_2 | 3 => cc0_transform_3 | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | ⟨_ + 5, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S16x1024x1024 : Shape := ⟨3, ![16, 1024, 1024]⟩
abbrev S16 : Shape := ⟨1, ![16]⟩
abbrev S1024x1024 : Shape := ⟨2, ![1024, 1024]⟩
abbrev S1024 : Shape := ⟨1, ![1024]⟩
abbrev S1x1024 : Shape := ⟨2, ![1, 1024]⟩
abbrev S16x1 : Shape := ⟨2, ![16, 1]⟩
abbrev S16x1024 : Shape := ⟨2, ![16, 1024]⟩
abbrev S16x1x1024 : Shape := ⟨3, ![16, 1, 1024]⟩
abbrev S_ : Shape := ⟨0, ![]⟩
abbrev S16x1024x1 : Shape := ⟨3, ![16, 1024, 1]⟩

abbrev nBuf : Space → Nat
  | .hbm => 33
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S16, .i32⟩
  | .hbm, ⟨3, _⟩ => ⟨S1024x1024, .f32⟩
  | .hbm, ⟨4, _⟩ => ⟨S16x1024x1024, .f32⟩
  | .hbm, ⟨5, _⟩ => ⟨S16x1024x1024, .f32⟩
  | .hbm, ⟨6, _⟩ => ⟨S1024, .i32⟩
  | .hbm, ⟨7, _⟩ => ⟨S1x1024, .i32⟩
  | .hbm, ⟨8, _⟩ => ⟨S16x1, .i32⟩
  | .hbm, ⟨9, _⟩ => ⟨S16x1024, .i32⟩
  | .hbm, ⟨10, _⟩ => ⟨S16x1024, .i32⟩
  | .hbm, ⟨11, _⟩ => ⟨S16x1024, .i1⟩
  | .hbm, ⟨12, _⟩ => ⟨S16x1x1024, .i1⟩
  | .hbm, ⟨13, _⟩ => ⟨S_, .f32⟩
  | .hbm, ⟨14, _⟩ => ⟨S_, .f32⟩
  | .hbm, ⟨15, _⟩ => ⟨S16x1024x1024, .i1⟩
  | .hbm, ⟨16, _⟩ => ⟨S16x1024x1024, .f32⟩
  | .hbm, ⟨17, _⟩ => ⟨S16x1024x1024, .f32⟩
  | .hbm, ⟨18, _⟩ => ⟨S_, .f32⟩
  | .hbm, ⟨19, _⟩ => ⟨S16x1024, .f32⟩
  | .hbm, ⟨20, _⟩ => ⟨S_, .f32⟩
  | .hbm, ⟨21, _⟩ => ⟨S16x1024, .f32⟩
  | .hbm, ⟨22, _⟩ => ⟨S16x1024, .f32⟩
  | .hbm, ⟨23, _⟩ => ⟨S16x1024x1, .f32⟩
  | .hbm, ⟨24, _⟩ => ⟨S16x1024x1024, .f32⟩
  | .hbm, ⟨25, _⟩ => ⟨S16x1024x1024, .f32⟩
  | .hbm, ⟨26, _⟩ => ⟨S16x1024x1024, .f32⟩
  | .hbm, ⟨27, _⟩ => ⟨S_, .f32⟩
  | .hbm, ⟨28, _⟩ => ⟨S16x1024, .f32⟩
  | .hbm, ⟨29, _⟩ => ⟨S16x1024x1, .f32⟩
  | .hbm, ⟨30, _⟩ => ⟨S16x1024x1024, .f32⟩
  | .hbm, ⟨31, _⟩ => ⟨S16x1024x1024, .f32⟩
  | .hbm, ⟨32, _⟩ => ⟨S16x1024x1024, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S16_S16x1_0 : S16.BroadcastsInDim S16x1 (![0] : Fin 1 → Fin S16x1.rank)
  bcast_S1x1024_S16x1024_0_1 : S1x1024.BroadcastsInDim S16x1024 (![0, 1] : Fin 2 → Fin S16x1024.rank)
  bcast_S16x1_S16x1024_0_1 : S16x1.BroadcastsInDim S16x1024 (![0, 1] : Fin 2 → Fin S16x1024.rank)
  bcast_S16x1024_S16x1x1024_0_2 : S16x1024.BroadcastsInDim S16x1x1024 (![0, 2] : Fin 2 → Fin S16x1x1024.rank)
  bcast_S16x1x1024_S16x1024x1024_0_1_2 : S16x1x1024.BroadcastsInDim S16x1024x1024 (![0, 1, 2] : Fin 3 → Fin S16x1024x1024.rank)
  bcast_S_S16x1024x1024 : S_.BroadcastsInDim S16x1024x1024 (![] : Fin 0 → Fin S16x1024x1024.rank)
  reducesTo_S16x1024x1024_S16x1024_d2 : S16x1024x1024.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  dot_S16x1024x1024_S1024x1024_S16x1024x1024_2_1_01_0_n_n_wf : DotDims.WF S16x1024x1024 S1024x1024 S16x1024x1024 [2] [1] [0, 1] [0] [] []
  dot_S16x1024x1024_S16x1024x1024_S16x1024x1024_2_2_1_1_0_0_wf : DotDims.WF S16x1024x1024 S16x1024x1024 S16x1024x1024 [2] [2] [1] [1] [0] [0]
  dot_S16x1024x1024_S16x1024x1024_S16x1024x1024_2_1_1_2_0_0_wf : DotDims.WF S16x1024x1024 S16x1024x1024 S16x1024x1024 [2] [1] [1] [2] [0] [0]

variable [Facts₀]

def dot_S16x1024x1024_S1024x1024_S16x1024x1024_2_1_01_0_n_n : DotDims S16x1024x1024 S1024x1024 S16x1024x1024 where
  lhsContracting := [2]
  rhsContracting := [1]
  lhsNonContracting := [0, 1]
  rhsNonContracting := [0]
  lhsBatch := []
  rhsBatch := []
  wf := dot_S16x1024x1024_S1024x1024_S16x1024x1024_2_1_01_0_n_n_wf
def dot_S16x1024x1024_S16x1024x1024_S16x1024x1024_2_2_1_1_0_0 : DotDims S16x1024x1024 S16x1024x1024 S16x1024x1024 where
  lhsContracting := [2]
  rhsContracting := [2]
  lhsNonContracting := [1]
  rhsNonContracting := [1]
  lhsBatch := [0]
  rhsBatch := [0]
  wf := dot_S16x1024x1024_S16x1024x1024_S16x1024x1024_2_2_1_1_0_0_wf
def dot_S16x1024x1024_S16x1024x1024_S16x1024x1024_2_1_1_2_0_0 : DotDims S16x1024x1024 S16x1024x1024 S16x1024x1024 where
  lhsContracting := [2]
  rhsContracting := [1]
  lhsNonContracting := [1]
  rhsNonContracting := [2]
  lhsBatch := [0]
  rhsBatch := [0]
  wf := dot_S16x1024x1024_S16x1024x1024_S16x1024x1024_2_1_1_2_0_0_wf

class Facts : Prop extends Facts₀ where

variable [Facts]
-- ==== Proof.Pieces.lean ====
/-
  What one grid point's body leaves in its two output blocks, as values of the blocks it loaded.

  The body loads the query block, the transposed weight matrix, the memory block and one word of the length
  table (the entry of the point's batch), and makes exactly two stores, each covering its whole output block:
  the block of normalized attention weights, and the block of context vectors. So each output block, read back
  after the body, is the stored payload: a pure function of the three loaded blocks and the length word.
-/
import proofs.«414034_j39633958207554_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Blocks

open Cert.KernelIdeal Cert.KernelIdeal.Gen

variable {F : FTy → Type} [FloatOps F] [Named F]

/-- The zero offsets of a rank-3 whole-block access. -/
theorem zero3 : (![0, 0, 0] : Fin 3 → Nat) = fun _ => 0 := funext fun a => by fin_cases a <;> rfl

/-- The zero offsets of a rank-2 whole-block access. -/
theorem zero2 : (![0, 0] : Fin 2 → Nat) = fun _ => 0 := funext fun a => by fin_cases a <;> rfl

/-- The length word the body reads at grid point `i`: the table's entry at the point's batch coordinate. -/
def lenWord (c : Dev nD) (i : grid0.Coords) (xt0 : TbBuf0 (F := F) c tbM0_0) : Elt F .i32 :=
  View.readAt (Elt F) tbM0_0.view (Rect.unit (s := S16) (k0_off1 i) S1.size (k0_off1_inb i)).toLoadRect xt0
    (Shape.Idx.first (numel1_S1.symm ▸ Nat.one_pos))

/-- The attention-weight block after the body: the one covering store's payload, of the loaded blocks. -/
theorem weights_block (c : Dev nD) (i : grid0.Coords) (arg3 : Memref sig .tc .vmem S1x512x1024 .f32) (harg3 : arg3.IsWhole) (arg4 : Memref sig .tc .vmem S1x1024x1024 .f32) (harg4 : arg4.IsWhole) (arg5 : Memref sig .tc .vmem S1024x1024 .f32) (harg5 : arg5.IsWhole) (arg6 : Memref sig .tc .vmem S1x512x1024 .f32) (harg6 : arg6.IsWhole) (arg7 : Memref sig .tc .vmem S1x512x1024 .f32) (harg7 : arg7.IsWhole)
    (x0 : Vec F S1x512x1024 .f32) (x1 : Vec F S1x1024x1024 .f32) (x2 : Vec F S1024x1024 .f32) (xt0 : TbBuf0 (F := F) c tbM0_0) :
    out0_A_4 c i arg3 harg3 arg4 harg4 arg5 harg5 arg6 harg6 arg7 harg7 x0 x1 x2 xt0 = k0_pay3 x0 x2 x1 (lenWord c i xt0) := by
  unfold out0_A_4
  rw [View.read_writes_eq_canon _ _ _ (cover0_A_4 c i arg3 harg3 arg4 harg4 arg5 harg5 arg6 harg6 arg7 harg7 x0 x1 x2 xt0)]
  unfold kernelRun0_A
  dsimp only
  sl_unfold_words
  rw [View.canon_unit_zero zero3]
  simp only [View.readAt_eq_ld, harg3.read_unread, harg4.read_unread, harg5.read_unread,
    View.ld_unit_zero (S := S1x512x1024) zero3, View.ld_unit_zero (S := S1x1024x1024) zero3, View.ld_unit_zero (S := S1024x1024) zero2]
  rfl

/-- The context block after the body: the one covering store's payload, of the loaded blocks. -/
theorem context_block (c : Dev nD) (i : grid0.Coords) (arg3 : Memref sig .tc .vmem S1x512x1024 .f32) (harg3 : arg3.IsWhole) (arg4 : Memref sig .tc .vmem S1x1024x1024 .f32) (harg4 : arg4.IsWhole) (arg5 : Memref sig .tc .vmem S1024x1024 .f32) (harg5 : arg5.IsWhole) (arg6 : Memref sig .tc .vmem S1x512x1024 .f32) (harg6 : arg6.IsWhole) (arg7 : Memref sig .tc .vmem S1x512x1024 .f32) (harg7 : arg7.IsWhole)
    (x0 : Vec F S1x512x1024 .f32) (x1 : Vec F S1x1024x1024 .f32) (x2 : Vec F S1024x1024 .f32) (xt0 : TbBuf0 (F := F) c tbM0_0) :
    out0_A_3 c i arg3 harg3 arg4 harg4 arg5 harg5 arg6 harg6 arg7 harg7 x0 x1 x2 xt0 = k0_pay4 x0 x2 x1 (lenWord c i xt0) := by
  unfold out0_A_3
  rw [View.read_writes_eq_canon _ _ _ (cover0_A_3 c i arg3 harg3 arg4 harg4 arg5 harg5 arg6 harg6 arg7 harg7 x0 x1 x2 xt0)]
  unfold kernelRun0_A
  dsimp only
  sl_unfold_words
  rw [View.canon_unit_zero zero3]
  simp only [View.readAt_eq_ld, harg3.read_unread, harg4.read_unread, harg5.read_unread,
    View.ld_unit_zero (S := S1x512x1024) zero3, View.ld_unit_zero (S := S1x1024x1024) zero3, View.ld_unit_zero (S := S1024x1024) zero2]
  rfl

end Cert.KernelIdeal.Blocks

end
-- ==== Proof.Attention.lean ====
/-
  Masked softmax attention of one query row, over the extended reals: the function both programs compute.

  For a query row q (1024 entries), a weight matrix W (1024 × 1024), a memory matrix Mb (1024 keys of 1024
  entries) and a length word len:
    projected  p_j = Σ_k q_k · W_{j,k}
    score      c_s = Σ_j p_j · Mb_{s,j}
    masked     z_s = c_s where s < len (as signed 32-bit words), -∞ elsewhere
    weight     a_s = exp (z_s - max_t z_t) / Σ_t exp (z_t - max_t z_t)
    context    o_j = Σ_s a_s · Mb_{s,j}
  Nothing here needs an algebraic law: the two programs perform these operations in the same order, so the
  definitions are matched term by term, whatever the extended reals make of an all-masked row.
-/
import Idealize.ShloMosaic.PureOps.Ideal
import Idealize.ShloMosaic.PureOps.Ideal.Laws
import Idealize.ShloMosaic.Lib.ValueIdx

noncomputable section

open scoped BigOperators

namespace Cert.Attention

open Idealize.ShloMosaic

/-- The f32 pattern of -∞ denotes the bottom extended real. -/
theorem negInf_f32 : Ideal.ofBits .f32 0xFF800000#32 = ⊥ := by simp [Ideal.ofBits, Ideal.ieee]

/-- The largest entry of a row (the bottom element for no entries). -/
def rowMax (z : Fin 1024 → EReal) : EReal := (Finset.univ : Finset (Fin 1024)).fold max ⊥ z

/-- The softmax of a row: each entry's exponential of its distance to the row's maximum, over the sum of these. -/
def softmaxRow (z : Fin 1024 → EReal) (s : Fin 1024) : EReal :=
  Ideal.div (Ideal.exp (z s - rowMax z)) (∑ k : Fin 1024, Ideal.exp (z k - rowMax z))

/-- The query row projected by the weights: entry j is the row against row j of W. -/
def projRow (q : Fin 1024 → EReal) (W : Fin 1024 → Fin 1024 → EReal) (j : Fin 1024) : EReal :=
  ∑ k : Fin 1024, q k * W j k

/-- The score of key s: the projected row against the key. -/
def scoreRow (q : Fin 1024 → EReal) (Mb W : Fin 1024 → Fin 1024 → EReal) (s : Fin 1024) : EReal :=
  ∑ j : Fin 1024, projRow q W j * Mb s j

/-- The scores with the keys at and beyond the length set to -∞. -/
def maskedRow (q : Fin 1024 → EReal) (Mb W : Fin 1024 → Fin 1024 → EReal) (len : BitVec 32) (s : Fin 1024) : EReal :=
  Scalar.select (IntOp.cmpi .slt (BitVec.ofNat 32 s.val) len) (scoreRow q Mb W s) ⊥

/-- The attention weights of the row. -/
def weightRow (q : Fin 1024 → EReal) (Mb W : Fin 1024 → Fin 1024 → EReal) (len : BitVec 32) (s : Fin 1024) : EReal :=
  softmaxRow (maskedRow q Mb W len) s

/-- The context vector of the row: the keys' entries averaged by the weights. -/
def contextRow (q : Fin 1024 → EReal) (Mb W : Fin 1024 → Fin 1024 → EReal) (len : BitVec 32) (j : Fin 1024) : EReal :=
  ∑ s : Fin 1024, weightRow q Mb W len s * Mb s j

/-- The weights depend on the row, the two matrices and the length only through their entries. -/
theorem weightRow_congr {q q' : Fin 1024 → EReal} {Mb Mb' W W' : Fin 1024 → Fin 1024 → EReal} {len len' : BitVec 32}
    (hq : ∀ k, q k = q' k) (hM : ∀ s j, Mb s j = Mb' s j) (hW : ∀ j k, W j k = W' j k) (hl : len = len') (s : Fin 1024) :
    weightRow q Mb W len s = weightRow q' Mb' W' len' s := by
  obtain rfl : q = q' := funext hq
  obtain rfl : Mb = Mb' := funext fun s => funext (hM s)
  obtain rfl : W = W' := funext fun j => funext (hW j)
  rw [hl]

/-- The context depends on the row, the two matrices and the length only through their entries. -/
theorem contextRow_congr {q q' : Fin 1024 → EReal} {Mb Mb' W W' : Fin 1024 → Fin 1024 → EReal} {len len' : BitVec 32}
    (hq : ∀ k, q k = q' k) (hM : ∀ s j, Mb s j = Mb' s j) (hW : ∀ j k, W j k = W' j k) (hl : len = len') (j : Fin 1024) :
    contextRow q Mb W len j = contextRow q' Mb' W' len' j := by
  obtain rfl : q = q' := funext hq
  obtain rfl : Mb = Mb' := funext fun s => funext (hM s)
  obtain rfl : W = W' := funext fun j => funext (hW j)
  rw [hl]

/-! ## The two result arrays

Row r of batch b attends with query row Q[b, r, ·], the batch's memory M[b, ·, ·], the weights W and the batch's
length L[b]. -/

open Idealize.ShloMosaic.ValueIdx in
/-- The attention weights, [16, 1024, 1024]: entry (b, r, s) is the weight of key s for query row r of batch b. -/
def weightsArr (Q M : (⟨3, ![16, 1024, 1024]⟩ : Shape).Idx → EReal) (L : (⟨1, ![16]⟩ : Shape).Idx → BitVec 32)
    (W : (⟨2, ![1024, 1024]⟩ : Shape).Idx → EReal) : (⟨3, ![16, 1024, 1024]⟩ : Shape).Idx → EReal :=
  fun i => weightRow (fun k => Q (ix3 (i 0) (i 1) k)) (fun s j => M (ix3 (i 0) s j)) (fun j k => W (ix2 j k)) (L (ix1 (i 0))) (i 2)

open Idealize.ShloMosaic.ValueIdx in
/-- The context vectors, [16, 1024, 1024]: entry (b, r, j) is entry j of the context of query row r of batch b. -/
def contextArr (Q M : (⟨3, ![16, 1024, 1024]⟩ : Shape).Idx → EReal) (L : (⟨1, ![16]⟩ : Shape).Idx → BitVec 32)
    (W : (⟨2, ![1024, 1024]⟩ : Shape).Idx → EReal) : (⟨3, ![16, 1024, 1024]⟩ : Shape).Idx → EReal :=
  fun i => contextRow (fun k => Q (ix3 (i 0) (i 1) k)) (fun s j => M (ix3 (i 0) s j)) (fun j k => W (ix2 j k)) (L (ix1 (i 0))) (i 2)

end Cert.Attention

end
-- ==== Proof.LibVecRows.lean ====
/-
  A kernel's vector operations on a block of rows read at an index: the sum of each row, a vector of row values
  viewed as a column, and a column broadcast along the rows. Stated for any extents.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.LibVecRows

open Idealize.ShloMosaic Idealize.ShloMosaic.ValueIdx

/-- The sum over the second axis of an `a × b` block, read at row `p`: the sum of the row. -/
theorem multiReduction_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  -- The reduction over one axis is the sum over that axis's coordinates of the source at the row index with the
  -- coordinate inserted; on the second axis of a rank-2 block the inserted index is (p, k).
  refine (Ideal.multiReduction_add_single src acc h hφ hacc (ix1 p)).trans ?_
  show ∑ k : Fin b, src (h.lift (ix1 p) k) = ∑ k : Fin b, src (ix2 p k)
  refine Finset.sum_congr rfl fun k _ => congrArg src ?_
  funext c
  match c with
  | ⟨0, _⟩ => exact Fin.ext rfl
  | ⟨1, _⟩ => exact Fin.ext rfl

/-- A vector of length `a` viewed as an `a × 1` column reads its own entry. -/
theorem shapeCast_col_apply {a : ℕ} {α : Type} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) :=
  -- Both indices have the row-major position p: p * 1 + 0 on the column side.
  shapeCast_apply v h _ _ (by
    have hz : z.val = 0 := by omega
    rw [Shape.rowMajor_val_one, Shape.rowMajor_val_two]
    show p.val = p.val * 1 + z.val
    rw [hz, Nat.mul_one, Nat.add_zero])

/-- An `a × 1` column broadcast to `a × b` reads the column's entry of the row. -/
theorem broadcastTo_col_apply {a b : ℕ} {α : Type} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  -- The row axis keeps its coordinate (which is 0 anyway when the extent is 1); the unit axis reads 0.
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

end Cert.LibVecRows

end
-- ==== Proof.LibVecRowMax.lean ====
/-
  The maximum of each row of a block of rows, as a kernel's vector reduction computes it, read at an index, at
  the extended reals. Stated for any extents.
-/
import Idealize.ShloMosaic.PureOps.Ideal
import Idealize.ShloMosaic.PureOps.Ideal.Laws
import Idealize.ShloMosaic.Lib.ValueIdx

noncomputable section

namespace Cert.LibVecRowMax

open Idealize.ShloMosaic Idealize.ShloMosaic.ValueIdx

/-- The maximum over the second axis of an `a × b` block, read at row `p`: the fold of `max`, from the value the
    accumulator's pattern denotes, over the row's `b` entries. -/
theorem multiReduction_max_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  -- a reduction over one axis folds over that axis's coordinates the source at the row index with the coordinate
  -- inserted; on the second axis of a rank-2 block the inserted index is (p, k)
  refine (Ideal.multiReduction_maximumf_single src acc h hφ hacc (ix1 p)).trans ?_
  show (Finset.univ : Finset (Fin b)).fold max (Ideal.ofBits φ acc) (src ∘ h.lift (ix1 p)) = _
  refine congrArg (fun f => Finset.fold max (Ideal.ofBits φ acc) f (Finset.univ : Finset (Fin b))) (funext fun k => congrArg src ?_)
  funext c
  match c with
  | ⟨0, _⟩ => exact Fin.ext rfl
  | ⟨1, _⟩ => exact Fin.ext rfl

end Cert.LibVecRowMax

end
-- ==== Proof.KernelRows.lean ====
/-
  The body's two stored payloads read at an index, at the extended reals: each row of the attention-weight block
  is the masked softmax attention of that row of the loaded query block, and each row of the context block is
  the weights' average of the loaded memory block.

  The body works on matrices: the query block as 512 rows, two matrix products (rows against the transposed
  weights, then against the memory block's rows), a mask from a column counter compared with the length word, the
  row maximum and row sum as reductions viewed as columns and broadcast back along the rows, and a last matrix
  product. Each is read here at one index, and the results are the row definitions, term by term.
-/
import proofs.«414034_j39633958207554_2_alg».proof.Proof.Gen.KernelIdeal.Skeleton
import proofs.«414034_j39633958207554_2_alg».proof.Proof.Attention
import proofs.«414034_j39633958207554_2_alg».proof.Proof.LibVecRows
import proofs.«414034_j39633958207554_2_alg».proof.Proof.LibVecRowMax
import Idealize.ShloMosaic.Lib.Pipeline.Value
import Idealize.ShloMosaic.Lib.ValueIdx
import Idealize.ShloMosaic.PureOps.Ideal.Laws
import Idealize.ShloMosaic.PureOps.IdealRules

noncomputable section

open scoped BigOperators

namespace Cert.KernelIdeal.Rows

open Cert.KernelIdeal Cert.KernelIdeal.Gen Idealize.ShloMosaic Idealize.ShloMosaic.ValueIdx Cert.Attention

/-! ## The body's values, stage by stage -/

section Stages
variable {F : FTy → Type} [FloatOps F] [Named F]

/-- The block of scores: the query rows times the transposed weights, times the memory rows. -/
def scoresB (x0 : Vec F S1x512x1024 .f32) (x2 : Vec F S1024x1024 .f32) (x1 : Vec F S1x1024x1024 .f32) : FVec F S512x1024 .f32 :=
  matmul dot_S512x1024_S1024x1024_S512x1024_1_1_0_0_n_n (some .fp32)
    (matmul dot_S512x1024_S1024x1024_S512x1024_1_0_0_1_n_n (some .fp32) (shapeCast S512x1024 x0 shapeCasts_S1x512x1024_S512x1024)
      (shapeCast S1024x1024 x2 shapeCasts_S1024x1024_S1024x1024) (constant S512x1024 .f32 0x00000000#32))
    (k0_pay1 x1) (constant S512x1024 .f32 0x00000000#32)

/-- The scores with the columns at and beyond the length word replaced by the named constant. -/
def maskedB (sc : FVec F S512x1024 .f32) (v9 : Elt F .i32) : FVec F S512x1024 .f32 :=
  select (cmpi .slt (iota .tc S512x1024 32 [1] iota_S512x1024_d1_w32) (broadcast S512x1024 v9)) sc
    (broadcast S512x1024 (Named.named κ "neg_big" 0xF149F2CA#32))

/-- Each row's maximum, broadcast back along the row. -/
def rowMaxB (z : FVec F S512x1024 .f32) : FVec F S512x1024 .f32 :=
  broadcastTo S512x1024 (shapeCast S512x1 (multiReduction .maximumf [1] S512 z 0xFF800000#32 reduces_S512x1024_S512 (.inl rfl) rfl)
    shapeCasts_S512_S512x1) broadcasts_S512x1_S512x1024

/-- The exponentials of the entries' distances to their row's maximum. -/
def expB (z : FVec F S512x1024 .f32) : FVec F S512x1024 .f32 := exp (subf z (rowMaxB z))

/-- Each row's sum, broadcast back along the row. -/
def rowSumB (e : FVec F S512x1024 .f32) : FVec F S512x1024 .f32 :=
  broadcastTo S512x1024 (shapeCast S512x1 (multiReduction .add [1] S512 e 0x00000000#32 reduces_S512x1024_S512 (.inl rfl) rfl)
    shapeCasts_S512_S512x1) broadcasts_S512x1_S512x1024

/-- The rows' softmax. -/
def softmaxB (z : FVec F S512x1024 .f32) : FVec F S512x1024 .f32 := divf (expB z) (rowSumB (expB z))

/-- The context rows: the weights times the memory block. -/
def contextB (a : FVec F S512x1024 .f32) (x1 : Vec F S1x1024x1024 .f32) : FVec F S512x1024 .f32 :=
  matmul dot_S512x1024_S1024x1024_S512x1024_1_0_0_1_n_n none (truncf .bf16 a bitsLt_bf16_f32) (truncf .bf16 (k0_pay1 x1) bitsLt_bf16_f32)
    (constant S512x1024 .f32 0x00000000#32)

/-- The weight payload is the softmax of the masked scores. -/
theorem weights_stages (x0 : Vec F S1x512x1024 .f32) (x2 : Vec F S1024x1024 .f32) (x1 : Vec F S1x1024x1024 .f32) (v9 : Elt F .i32) :
    k0_pay2 x0 x2 x1 v9 = softmaxB (maskedB (scoresB x0 x2 x1) v9) := rfl

end Stages

/-! ## Layout operations at an index -/

/-- A stack of one matrix viewed as the matrix reads the matrix's entry. -/
theorem dropUnit_apply {a b : ℕ} {α : Type} (v : (⟨3, ![1, a, b]⟩ : Shape).Idx → α)
    (h : (⟨3, ![1, a, b]⟩ : Shape).ShapeCasts ⟨2, ![a, b]⟩) (p : Fin a) (k : Fin b) :
    shapeCast ⟨2, ![a, b]⟩ v h (ix2 p k) = v (ix3 (0 : Fin 1) p k) :=
  -- both indices have the row-major position p * b + k
  shapeCast_apply v h _ _ (by
    rw [Shape.rowMajor_val_three, Shape.rowMajor_val_two]
    show ((0 : ℕ) * a + p.val) * b + k.val = p.val * b + k.val
    rw [Nat.zero_mul, Nat.zero_add])

/-- A matrix viewed as a stack of one matrix reads the matrix's entry. -/
theorem addUnit_apply {a b : ℕ} {α : Type} (v : (⟨2, ![a, b]⟩ : Shape).Idx → α)
    (h : (⟨2, ![a, b]⟩ : Shape).ShapeCasts ⟨3, ![1, a, b]⟩) (z : Fin 1) (p : Fin a) (k : Fin b) :
    shapeCast ⟨3, ![1, a, b]⟩ v h (ix3 z p k) = v (ix2 p k) :=
  shapeCast_apply v h _ _ (by
    have hz : z.val = 0 := by omega
    rw [Shape.rowMajor_val_three, Shape.rowMajor_val_two]
    show p.val * b + k.val = (z.val * a + p.val) * b + k.val
    rw [hz, Nat.zero_mul, Nat.zero_add])

/-! ## The two matrix products at an index -/

theorem lhsA_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhsA_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhsA_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhsA_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Rows times columns: entry (p, j) of the product into a zero accumulator is row p of the left against column j
    of the right. -/
theorem rowsByCols_apply {φ₁ φ₂ : FTy} (prec : Option ContractPrecision) (a : FVec Ideal S512x1024 φ₁) (b : FVec Ideal S1024x1024 φ₂)
    (p : Fin 512) (j : Fin 1024) :
    matmul dot_S512x1024_S1024x1024_S512x1024_1_0_0_1_n_n prec a b (constant S512x1024 .f32 0x00000000#32) (ix2 p j)
      = ∑ k : Fin 1024, a (ix2 p k) * b (ix2 k j) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p j) ((ValueIdx.contrEquiv1 dot_S512x1024_S1024x1024_S512x1024_1_0_0_1_n_n 1024 rfl rfl).symm k) = ix2 p k := funext fun c => Fin.ext (by
    match c with
    | ⟨0, _⟩ => exact lhsA_0 _ _
    | ⟨1, _⟩ => exact (lhsA_1 _ _).trans hk)
  have er : dot_S512x1024_S1024x1024_S512x1024_1_0_0_1_n_n.rhsIdx (ix2 p j) ((ValueIdx.contrEquiv1 dot_S512x1024_S1024x1024_S512x1024_1_0_0_1_n_n 1024 rfl rfl).symm k) = ix2 k j := funext fun c => Fin.ext (by
    match c with
    | ⟨0, _⟩ => exact (rhsA_0 _ _).trans hk
    | ⟨1, _⟩ => exact rhsA_1 _ _)
  rw [el, er]

theorem lhsB_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhsB_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhsB_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhsB_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- Rows times rows: entry (p, s) of the product into a zero accumulator is row p of the left against row s of
    the right. -/
theorem rowsByRows_apply {φ₁ φ₂ : FTy} (prec : Option ContractPrecision) (a : FVec Ideal S512x1024 φ₁) (b : FVec Ideal S1024x1024 φ₂)
    (p : Fin 512) (s : Fin 1024) :
    matmul dot_S512x1024_S1024x1024_S512x1024_1_1_0_0_n_n prec a b (constant S512x1024 .f32 0x00000000#32) (ix2 p s)
      = ∑ j : Fin 1024, a (ix2 p j) * b (ix2 s j) := by
  simp only [matmul]
  rw [Ideal.matmul_constant_zero_apply, ← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 p s) ((ValueIdx.contrEquiv1 dot_S512x1024_S1024x1024_S512x1024_1_1_0_0_n_n 1024 rfl rfl).symm k) = ix2 p k := funext fun c => Fin.ext (by
    match c with
    | ⟨0, _⟩ => exact lhsB_0 _ _
    | ⟨1, _⟩ => exact (lhsB_1 _ _).trans hk)
  have er : dot_S512x1024_S1024x1024_S512x1024_1_1_0_0_n_n.rhsIdx (ix2 p s) ((ValueIdx.contrEquiv1 dot_S512x1024_S1024x1024_S512x1024_1_1_0_0_n_n 1024 rfl rfl).symm k) = ix2 s k := funext fun c => Fin.ext (by
    match c with
    | ⟨0, _⟩ => exact rhsB_0 _ _
    | ⟨1, _⟩ => exact (rhsB_1 _ _).trans hk)
  rw [el, er]

/-! ## The stages at an index -/

/-- The memory block viewed as a matrix reads the block's entry. -/
theorem mem_apply (x1 : Vec Ideal S1x1024x1024 .f32) (s j : Fin 1024) :
    k0_pay1 (F := Ideal) x1 (ix2 s j) = x1 (ix3 (0 : Fin 1) s j) :=
  dropUnit_apply x1 shapeCasts_S1x1024x1024_S1024x1024 s j

/-- A score is the row's score against the key. -/
theorem scoresB_apply (x0 : Vec Ideal S1x512x1024 .f32) (x2 : Vec Ideal S1024x1024 .f32) (x1 : Vec Ideal S1x1024x1024 .f32)
    (p : Fin 512) (s : Fin 1024) :
    scoresB (F := Ideal) x0 x2 x1 (ix2 p s)
      = scoreRow (fun k => x0 (ix3 (0 : Fin 1) p k)) (fun s j => x1 (ix3 (0 : Fin 1) s j)) (fun j k => x2 (ix2 k j)) s := by
  unfold scoresB scoreRow projRow
  refine (rowsByRows_apply _ _ _ p s).trans (Finset.sum_congr rfl fun j _ => ?_)
  rw [mem_apply]
  refine congrArg (· * x1 (ix3 (0 : Fin 1) s j)) ?_
  refine (rowsByCols_apply _ _ _ p j).trans (Finset.sum_congr rfl fun k _ => ?_)
  rw [shapeCast_self]
  exact congrArg (· * x2 (ix2 k j)) (dropUnit_apply x0 shapeCasts_S1x512x1024_S512x1024 p k)

/-- A masked score is the score below the length word and the bottom element from it on. -/
theorem maskedB_apply (sc : FVec Ideal S512x1024 .f32) (v9 : Elt Ideal .i32) (p : Fin 512) (k : Fin 1024) :
    maskedB sc v9 (ix2 p k) = Scalar.select (IntOp.cmpi .slt (BitVec.ofNat 32 k.val) v9) (sc (ix2 p k)) (⊥ : EReal) := by
  show Scalar.select (IntOp.cmpi .slt (iota .tc S512x1024 32 [1] iota_S512x1024_d1_w32 (ix2 p k)) v9) (sc (ix2 p k))
    (Named.named (F := Ideal) κ "neg_big" (φ := .f32) 0xF149F2CA#32) = _
  rw [iota_single_apply, IdealRules.named_const.ideal_named_scalar κ "neg_big" _ ⊥ rfl]

/-- The broadcast row maximum is the row's maximum. -/
theorem rowMaxB_apply (z : FVec Ideal S512x1024 .f32) (p : Fin 512) (k : Fin 1024) :
    rowMaxB z (ix2 p k) = rowMax (fun t => z (ix2 p t)) := by
  unfold rowMaxB rowMax
  refine (LibVecRows.broadcastTo_col_apply _ broadcasts_S512x1_S512x1024 p k).trans ?_
  refine (LibVecRows.shapeCast_col_apply _ shapeCasts_S512_S512x1 p 0).trans ?_
  refine (LibVecRowMax.multiReduction_max_rows_apply z _ reduces_S512x1024_S512 (.inl rfl) rfl p).trans ?_
  show (Finset.univ : Finset (Fin 1024)).fold max (Ideal.ofBits .f32 0xFF800000#32) (fun k => z (ix2 p k)) = _
  rw [negInf_f32]

/-- The broadcast row sum is the row's sum. -/
theorem rowSumB_apply (e : FVec Ideal S512x1024 .f32) (p : Fin 512) (k : Fin 1024) :
    rowSumB e (ix2 p k) = ∑ t : Fin 1024, e (ix2 p t) := by
  unfold rowSumB
  refine (LibVecRows.broadcastTo_col_apply _ broadcasts_S512x1_S512x1024 p k).trans ?_
  refine (LibVecRows.shapeCast_col_apply _ shapeCasts_S512_S512x1 p 0).trans ?_
  exact LibVecRows.multiReduction_rows_apply e _ reduces_S512x1024_S512 (.inl rfl) rfl p

theorem expB_apply (z : FVec Ideal S512x1024 .f32) (p : Fin 512) (k : Fin 1024) :
    expB z (ix2 p k) = Ideal.exp (z (ix2 p k) - rowMax (fun t => z (ix2 p t))) := by
  show Ideal.exp (z (ix2 p k) - rowMaxB z (ix2 p k)) = _
  rw [rowMaxB_apply]

/-- The softmax block's row is the softmax of the row. -/
theorem softmaxB_apply (z : FVec Ideal S512x1024 .f32) (p : Fin 512) (s : Fin 1024) :
    softmaxB z (ix2 p s) = softmaxRow (fun t => z (ix2 p t)) s := by
  show Ideal.div (expB z (ix2 p s)) (rowSumB (expB z) (ix2 p s)) = _
  rw [rowSumB_apply, expB_apply]
  unfold softmaxRow
  exact congrArg _ (Finset.sum_congr rfl fun t _ => expB_apply z p t)

/-! ## The payloads at an index -/

/-- Entry (p, s) of the weights: the attention weight of key s for row p of the query block. -/
theorem weights_apply (x0 : Vec Ideal S1x512x1024 .f32) (x2 : Vec Ideal S1024x1024 .f32) (x1 : Vec Ideal S1x1024x1024 .f32)
    (v9 : Elt Ideal .i32) (p : Fin 512) (s : Fin 1024) :
    k0_pay2 (F := Ideal) x0 x2 x1 v9 (ix2 p s)
      = weightRow (fun k => x0 (ix3 (0 : Fin 1) p k)) (fun s j => x1 (ix3 (0 : Fin 1) s j)) (fun j k => x2 (ix2 k j)) v9 s := by
  rw [weights_stages, softmaxB_apply]
  unfold weightRow
  refine congrArg (fun z => softmaxRow z s) (funext fun t => ?_)
  rw [maskedB_apply, scoresB_apply]
  rfl

/-- The stored weight block at (0, p, s). -/
theorem weights_block_apply (x0 : Vec Ideal S1x512x1024 .f32) (x2 : Vec Ideal S1024x1024 .f32) (x1 : Vec Ideal S1x1024x1024 .f32)
    (v9 : Elt Ideal .i32) (z : Fin 1) (p : Fin 512) (s : Fin 1024) :
    k0_pay3 (F := Ideal) x0 x2 x1 v9 (ix3 z p s)
      = weightRow (fun k => x0 (ix3 (0 : Fin 1) p k)) (fun s j => x1 (ix3 (0 : Fin 1) s j)) (fun j k => x2 (ix2 k j)) v9 s :=
  (addUnit_apply (k0_pay2 (F := Ideal) x0 x2 x1 v9) shapeCasts_S512x1024_S1x512x1024 z p s).trans (weights_apply x0 x2 x1 v9 p s)

/-- The stored context block at (0, p, j): the weights of row p against column j of the memory block. -/
theorem context_block_apply (x0 : Vec Ideal S1x512x1024 .f32) (x2 : Vec Ideal S1024x1024 .f32) (x1 : Vec Ideal S1x1024x1024 .f32)
    (v9 : Elt Ideal .i32) (z : Fin 1) (p : Fin 512) (j : Fin 1024) :
    k0_pay4 (F := Ideal) x0 x2 x1 v9 (ix3 z p j)
      = contextRow (fun k => x0 (ix3 (0 : Fin 1) p k)) (fun s j => x1 (ix3 (0 : Fin 1) s j)) (fun j k => x2 (ix2 k j)) v9 j := by
  refine (addUnit_apply (contextB (k0_pay2 (F := Ideal) x0 x2 x1 v9) x1) shapeCasts_S512x1024_S1x512x1024 z p j).trans ?_
  unfold contextB contextRow
  refine (rowsByCols_apply none _ _ p j).trans (Finset.sum_congr rfl fun s _ => ?_)
  show k0_pay2 (F := Ideal) x0 x2 x1 v9 (ix2 p s) * k0_pay1 (F := Ideal) x1 (ix2 s j) = _
  rw [weights_apply, mem_apply]

end Cert.KernelIdeal.Rows

end
-- ==== Proof.KernelArrays.lean ====
/-
  The kernel's two result arrays after the run, at the extended reals: the attention weights and the context
  vectors of every query row, as functions of the four argument arrays.

  Grid point (b, h) works on rows 512·h … 512·h + 511 of batch b: its query block is those rows, its memory block
  the whole memory of batch b, its weight block the transposed weight matrix (transposed once before the launch),
  its length word entry b of the length table. The body's two stores (read at an index in the rows module) are
  therefore those rows of the two result arrays; the 32 points' blocks tile the arrays.
-/
import proofs.«414034_j39633958207554_2_alg».proof.Proof.Pieces
import proofs.«414034_j39633958207554_2_alg».proof.Proof.KernelRows
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Arrays

open Cert.KernelIdeal Cert.KernelIdeal.Gen Idealize.ShloMosaic.ValueIdx Cert.Attention

variable (m : (ℓ : Loc nD τ sig) → Buf (Elt Ideal) ℓ) (ρ : Dev nD → PrngReg)

/-- No window's index map reads the length table, so the pipeline's side condition on it is empty. -/
theorem ok : Ok m := Eq.mpr (ok0.eq_1 (F := Ideal) (tbl m)) trivial

/-! ## The grid points -/

/-- The batch a grid point works on. -/
def batchOf (t : Fin grid0.N) : Fin 16 := ⟨(grid0.coords t 0).val, (grid0.coords t 0).isLt⟩
/-- The half of the batch's rows a grid point works on. -/
def halfOf (t : Fin grid0.N) : Fin 2 := ⟨(grid0.coords t 1).val, (grid0.coords t 1).isLt⟩
/-- Row p of the point's block is this row of the batch. -/
def rowOf (t : Fin grid0.N) (p : Fin 512) : Fin 1024 := ⟨(halfOf t).val * 512 + p.val, by have := (halfOf t).isLt; have := p.isLt; omega⟩

/-- The printed index maps at every grid point: the query block and both output blocks are block (b, h, 0), the
    memory block is block (b, 0, 0), the weight block is block (0, 0), and the length word is entry b. -/
theorem point_facts : ∀ t : Fin grid0.N,
    cc0_transform_0 (grid0.coords t) (0 : Fin 3) = (batchOf t).val ∧ cc0_transform_0 (grid0.coords t) (1 : Fin 3) = (halfOf t).val
    ∧ cc0_transform_0 (grid0.coords t) (2 : Fin 3) = 0
    ∧ cc0_transform_1 (grid0.coords t) (0 : Fin 3) = (batchOf t).val ∧ cc0_transform_1 (grid0.coords t) (1 : Fin 3) = 0
    ∧ cc0_transform_1 (grid0.coords t) (2 : Fin 3) = 0
    ∧ cc0_transform_2 (grid0.coords t) (0 : Fin 2) = 0 ∧ cc0_transform_2 (grid0.coords t) (1 : Fin 2) = 0
    ∧ cc0_transform_3 (grid0.coords t) (0 : Fin 3) = (batchOf t).val ∧ cc0_transform_3 (grid0.coords t) (1 : Fin 3) = (halfOf t).val
    ∧ cc0_transform_3 (grid0.coords t) (2 : Fin 3) = 0
    ∧ cc0_transform_4 (grid0.coords t) (0 : Fin 3) = (batchOf t).val ∧ cc0_transform_4 (grid0.coords t) (1 : Fin 3) = (halfOf t).val
    ∧ cc0_transform_4 (grid0.coords t) (2 : Fin 3) = 0
    ∧ k0_off1 (grid0.coords t) (0 : Fin 1) = (batchOf t).val := by
  decide +kernel

/-- Every (batch, half) is some grid point's. -/
theorem point_onto : ∀ (b : Fin 16) (h : Fin 2), ∃ t : Fin grid0.N, batchOf t = b ∧ halfOf t = h := by
  decide +kernel

/-! ## The blocks a grid point is handed -/

/-- The weight window's array is the weight matrix transposed (the one host operation before the launch). -/
theorem wT_eq (c : Dev nD) : (V m c main_v0 : S1024x1024.Idx → EReal)
    = transpose S1024x1024 [1, 0] (m ((c : Thread nD τ).loc main_arg3)) transposes_S1024x1024_S1024x1024_1_0 := by
  dsimp only [Gen.V, Gen.hostOps0]
  after_results

/-- The query block of a grid point. -/
abbrev qblk (c : Dev nD) (t : Fin (cfgM m (ok m)).N) : Vec Ideal S1x512x1024 .f32 := iblk m (ok m) c 0 t
/-- The memory block of a grid point. -/
abbrev mblk (c : Dev nD) (t : Fin (cfgM m (ok m)).N) : Vec Ideal S1x1024x1024 .f32 := iblk m (ok m) c 1 t
/-- The (transposed) weight block of a grid point. -/
abbrev wblk (c : Dev nD) (t : Fin (cfgM m (ok m)).N) : Vec Ideal S1024x1024 .f32 := iblk m (ok m) c 2 t

/-- Row p of the query block is row 512·h + p of batch b of the query array. -/
theorem qblk_apply (c : Dev nD) (t : Fin (cfgM m (ok m)).N) (p : Fin 512) (k : Fin 1024) :
    qblk m c t (ix3 (0 : Fin 1) p k) = m ((c : Thread nD τ).loc main_arg0) (ix3 (batchOf t) (rowOf t p) k) := by
  obtain ⟨q0, q1, q2, -⟩ := point_facts t
  unfold qblk iblk
  show V m c main_arg0 ((((cfgM m (ok m)).win 0).blk t).view.emb (ix3 (0 : Fin 1) p k)) = _
  rw [V_main_arg0]
  refine congrArg (m ((c : Thread nD τ).loc main_arg0)) (funext fun a => Fin.ext ?_)
  match a with
  | ⟨0, _⟩ => show cc0_transform_0 (grid0.coords t) (0 : Fin 3) * 1 + 1 * 0 = (batchOf t).val; omega
  | ⟨1, _⟩ => show cc0_transform_0 (grid0.coords t) (1 : Fin 3) * 512 + 1 * p.val = (halfOf t).val * 512 + p.val; omega
  | ⟨2, _⟩ => show cc0_transform_0 (grid0.coords t) (2 : Fin 3) * 1024 + 1 * k.val = k.val; omega

/-- The memory block is the memory of batch b. -/
theorem mblk_apply (c : Dev nD) (t : Fin (cfgM m (ok m)).N) (s j : Fin 1024) :
    mblk m c t (ix3 (0 : Fin 1) s j) = m ((c : Thread nD τ).loc main_arg1) (ix3 (batchOf t) s j) := by
  obtain ⟨-, -, -, m0, m1, m2, -⟩ := point_facts t
  unfold mblk iblk
  show V m c main_arg1 ((((cfgM m (ok m)).win 1).blk t).view.emb (ix3 (0 : Fin 1) s j)) = _
  rw [V_main_arg1]
  refine congrArg (m ((c : Thread nD τ).loc main_arg1)) (funext fun a => Fin.ext ?_)
  match a with
  | ⟨0, _⟩ => show cc0_transform_1 (grid0.coords t) (0 : Fin 3) * 1 + 1 * 0 = (batchOf t).val; omega
  | ⟨1, _⟩ => show cc0_transform_1 (grid0.coords t) (1 : Fin 3) * 1024 + 1 * s.val = s.val; omega
  | ⟨2, _⟩ => show cc0_transform_1 (grid0.coords t) (2 : Fin 3) * 1024 + 1 * j.val = j.val; omega

/-- The weight block at (k, j) is the weight matrix at (j, k). -/
theorem wblk_apply (c : Dev nD) (t : Fin (cfgM m (ok m)).N) (k j : Fin 1024) :
    wblk m c t (ix2 k j) = m ((c : Thread nD τ).loc main_arg3) (ix2 j k) := by
  obtain ⟨-, -, -, -, -, -, w0, w1, -⟩ := point_facts t
  unfold wblk iblk
  show (V m c main_v0 : S1024x1024.Idx → EReal) ((((cfgM m (ok m)).win 2).blk t).view.emb (ix2 k j)) = _
  rw [wT_eq]
  refine transpose_apply [1, 0] _ transposes_S1024x1024_S1024x1024_1_0 _ (ix2 j k) fun b => ?_
  match b with
  | ⟨0, _⟩ => show k.val = cc0_transform_2 (grid0.coords t) (0 : Fin 2) * 1024 + 1 * k.val; omega
  | ⟨1, _⟩ => show j.val = cc0_transform_2 (grid0.coords t) (1 : Fin 2) * 1024 + 1 * j.val; omega

/-- The one index of a one-element shape has coordinate zero. -/
theorem first_zero (h1 : 0 < S1.numel) : (Shape.Idx.first h1 (0 : Fin 1)).val = 0 := by
  have := (Shape.Idx.first h1 (0 : Fin 1)).isLt
  have e : S1.size (0 : Fin 1) = 1 := by decide
  omega

/-- The length word a grid point reads is the length of its batch. -/
theorem lenWord_eq (c : Dev nD) (t : Fin grid0.N) :
    Blocks.lenWord c (grid0.coords t) (tbl m 0) = m (((0 : Dev nD) : Thread nD τ).loc main_arg2) (ix1 (batchOf t)) := by
  obtain ⟨-, -, -, -, -, -, -, -, -, -, -, -, -, -, l0⟩ := point_facts t
  have hV : tbl m 0 = m (((0 : Dev nD) : Thread nD τ).loc main_arg2) := V_main_arg2 m 0
  unfold Blocks.lenWord
  rw [hV]
  refine congrArg (m (((0 : Dev nD) : Thread nD τ).loc main_arg2)) (funext fun a => Fin.ext ?_)
  match a with
  | ⟨0, _⟩ =>
    have hf := first_zero (numel1_S1.symm ▸ Nat.one_pos)
    show k0_off1 (grid0.coords t) (0 : Fin 1) + 1 * (Shape.Idx.first (numel1_S1.symm ▸ Nat.one_pos : 0 < S1.numel) (0 : Fin 1)).val = (batchOf t).val
    rw [hf, l0, Nat.mul_zero, Nat.add_zero]

/-! ## What a grid point writes back -/

/-- Element (0, p, s) of either output block of point t sits at (b, 512·h + p, s) of the array (the context window). -/
theorem emb3 (t : Fin (cfgM m (ok m)).N) (z : Fin 1) (p : Fin 512) (s : Fin 1024) :
    ((((cfgM m (ok m)).win 3).blk t).view.emb (ix3 z p s) : S16x1024x1024.Idx) = ix3 (batchOf t) (rowOf t p) s := by
  obtain ⟨-, -, -, -, -, -, -, -, c0, c1, c2, -⟩ := point_facts t
  have hz : z.val = 0 := by omega
  refine funext fun a => Fin.ext ?_
  match a with
  | ⟨0, _⟩ => show cc0_transform_3 (grid0.coords t) (0 : Fin 3) * 1 + 1 * z.val = (batchOf t).val; omega
  | ⟨1, _⟩ => show cc0_transform_3 (grid0.coords t) (1 : Fin 3) * 512 + 1 * p.val = (halfOf t).val * 512 + p.val; omega
  | ⟨2, _⟩ => show cc0_transform_3 (grid0.coords t) (2 : Fin 3) * 1024 + 1 * s.val = s.val; omega

/-- The same for the weights window. -/
theorem emb4 (t : Fin (cfgM m (ok m)).N) (z : Fin 1) (p : Fin 512) (s : Fin 1024) :
    ((((cfgM m (ok m)).win 4).blk t).view.emb (ix3 z p s) : S16x1024x1024.Idx) = ix3 (batchOf t) (rowOf t p) s := by
  obtain ⟨-, -, -, -, -, -, -, -, -, -, -, a0, a1, a2, -⟩ := point_facts t
  have hz : z.val = 0 := by omega
  refine funext fun a => Fin.ext ?_
  match a with
  | ⟨0, _⟩ => show cc0_transform_4 (grid0.coords t) (0 : Fin 3) * 1 + 1 * z.val = (batchOf t).val; omega
  | ⟨1, _⟩ => show cc0_transform_4 (grid0.coords t) (1 : Fin 3) * 512 + 1 * p.val = (halfOf t).val * 512 + p.val; omega
  | ⟨2, _⟩ => show cc0_transform_4 (grid0.coords t) (2 : Fin 3) * 1024 + 1 * s.val = s.val; omega

/-- The attention weights of the whole run, of the argument arrays on core c. -/
abbrev weightsOf (c : Dev nD) : S16x1024x1024.Idx → EReal :=
  weightsArr (m ((c : Thread nD τ).loc main_arg0)) (m ((c : Thread nD τ).loc main_arg1)) (m ((c : Thread nD τ).loc main_arg2))
    (m ((c : Thread nD τ).loc main_arg3))

/-- The context vectors of the whole run, of the argument arrays on core c. -/
abbrev contextOf (c : Dev nD) : S16x1024x1024.Idx → EReal :=
  contextArr (m ((c : Thread nD τ).loc main_arg0)) (m ((c : Thread nD τ).loc main_arg1)) (m ((c : Thread nD τ).loc main_arg2))
    (m ((c : Thread nD τ).loc main_arg3))

/-- What point t writes back to the weights array is block t of the attention weights. -/
theorem flushed_weights (c : Dev nD) (t : Fin (cfgM m (ok m)).N) :
    (dats m (ok m) 0 c).flushed 4 t = (((cfgM m (ok m)).win 4).blk t).view.read (Elt Ideal) (weightsOf m c) := by
  obtain rfl : c = 0 := Subsingleton.elim _ _
  show ((cfgM m (ok m)).win 4).cut (grid0.coords t) ((dats m (ok m) 0 0).after 4 t) = _
  rw [after0_4]
  unfold outsAt0
  dsimp only
  have hb := Blocks.weights_block (F := Ideal) 0 (grid0.coords t) (ms0_0 m (ok m) t) (hs0_0 m (ok m) t) (ms0_1 m (ok m) t) (hs0_1 m (ok m) t)
    (ms0_2 m (ok m) t) (hs0_2 m (ok m) t) (ms0_3 m (ok m) t) (hs0_3 m (ok m) t) (ms0_4 m (ok m) t) (hs0_4 m (ok m) t)
    (qblk m 0 t) (mblk m 0 t) (wblk m 0 t) (tbl m 0)
  refine funext fun (y : S1x512x1024.Idx) => ?_
  obtain ⟨z, p, s, rfl⟩ : ∃ (z : Fin 1) (p : Fin 512) (s : Fin 1024), y = ix3 z p s := ⟨y 0, y 1, y 2, eq_ix3 y⟩
  show out0_A_4 (F := Ideal) 0 (grid0.coords t) (ms0_0 m (ok m) t) (hs0_0 m (ok m) t) (ms0_1 m (ok m) t) (hs0_1 m (ok m) t)
      (ms0_2 m (ok m) t) (hs0_2 m (ok m) t) (ms0_3 m (ok m) t) (hs0_3 m (ok m) t) (ms0_4 m (ok m) t) (hs0_4 m (ok m) t)
      (qblk m 0 t) (mblk m 0 t) (wblk m 0 t) (tbl m 0) (ix3 z p s)
    = weightsOf m 0 ((((cfgM m (ok m)).win 4).blk t).view.emb (ix3 z p s))
  refine (congrFun hb (ix3 z p s)).trans ?_
  refine ((Rows.weights_block_apply (qblk m 0 t) (wblk m 0 t) (mblk m 0 t) (Blocks.lenWord 0 (grid0.coords t) (tbl m 0)) z p s).trans ?_).trans
    (congrArg (weightsOf m 0) (emb4 m t z p s)).symm
  exact weightRow_congr (fun k => qblk_apply m 0 t p k) (fun s j => mblk_apply m 0 t s j) (fun j k => wblk_apply m 0 t k j) (lenWord_eq m 0 t) s

/-- What point t writes back to the context array is block t of the context vectors. -/
theorem flushed_context (c : Dev nD) (t : Fin (cfgM m (ok m)).N) :
    (dats m (ok m) 0 c).flushed 3 t = (((cfgM m (ok m)).win 3).blk t).view.read (Elt Ideal) (contextOf m c) := by
  obtain rfl : c = 0 := Subsingleton.elim _ _
  show ((cfgM m (ok m)).win 3).cut (grid0.coords t) ((dats m (ok m) 0 0).after 3 t) = _
  rw [after0_3]
  unfold outsAt0
  dsimp only
  have hb := Blocks.context_block (F := Ideal) 0 (grid0.coords t) (ms0_0 m (ok m) t) (hs0_0 m (ok m) t) (ms0_1 m (ok m) t) (hs0_1 m (ok m) t)
    (ms0_2 m (ok m) t) (hs0_2 m (ok m) t) (ms0_3 m (ok m) t) (hs0_3 m (ok m) t) (ms0_4 m (ok m) t) (hs0_4 m (ok m) t)
    (qblk m 0 t) (mblk m 0 t) (wblk m 0 t) (tbl m 0)
  refine funext fun (y : S1x512x1024.Idx) => ?_
  obtain ⟨z, p, j, rfl⟩ : ∃ (z : Fin 1) (p : Fin 512) (j : Fin 1024), y = ix3 z p j := ⟨y 0, y 1, y 2, eq_ix3 y⟩
  show out0_A_3 (F := Ideal) 0 (grid0.coords t) (ms0_0 m (ok m) t) (hs0_0 m (ok m) t) (ms0_1 m (ok m) t) (hs0_1 m (ok m) t)
      (ms0_2 m (ok m) t) (hs0_2 m (ok m) t) (ms0_3 m (ok m) t) (hs0_3 m (ok m) t) (ms0_4 m (ok m) t) (hs0_4 m (ok m) t)
      (qblk m 0 t) (mblk m 0 t) (wblk m 0 t) (tbl m 0) (ix3 z p j)
    = contextOf m 0 ((((cfgM m (ok m)).win 3).blk t).view.emb (ix3 z p j))
  refine (congrFun hb (ix3 z p j)).trans ?_
  refine ((Rows.context_block_apply (qblk m 0 t) (wblk m 0 t) (mblk m 0 t) (Blocks.lenWord 0 (grid0.coords t) (tbl m 0)) z p j).trans ?_).trans
    (congrArg (contextOf m 0) (emb3 m t z p j)).symm
  exact contextRow_congr (fun k => qblk_apply m 0 t p k) (fun s j => mblk_apply m 0 t s j) (fun j k => wblk_apply m 0 t k j) (lenWord_eq m 0 t) j

/-! ## The blocks tile the arrays -/

/-- An index of the context array is in point t's block iff each coordinate is in the block's range on its axis. -/
theorem mem_blk3 (t : Fin (cfgM m (ok m)).N) (i : S16x1024x1024.Idx) :
    i ∈ (((cfgM m (ok m)).win 3).blk t).view.set ↔ ∀ a : Fin 3, cc0_transform_3 (grid0.coords t) a * S1x512x1024.size a ≤ (i a).val
      ∧ (i a).val < cc0_transform_3 (grid0.coords t) a * S1x512x1024.size a + S1x512x1024.size a := by
  show i ∈ ((View.whole main_v1_0).slice ((win0 (adm m (ok m)) 3).rect t)).set ↔ _
  rw [View.set_slice_whole, Rect.mem_set_unit]
  exact Iff.rfl

/-- The same for the weights array. -/
theorem mem_blk4 (t : Fin (cfgM m (ok m)).N) (i : S16x1024x1024.Idx) :
    i ∈ (((cfgM m (ok m)).win 4).blk t).view.set ↔ ∀ a : Fin 3, cc0_transform_4 (grid0.coords t) a * S1x512x1024.size a ≤ (i a).val
      ∧ (i a).val < cc0_transform_4 (grid0.coords t) a * S1x512x1024.size a + S1x512x1024.size a := by
  show i ∈ ((View.whole main_v1_1).slice ((win0 (adm m (ok m)) 4).rect t)).set ↔ _
  rw [View.set_slice_whole, Rect.mem_set_unit]
  exact Iff.rfl

/-- Every index (b, r, s) of the context array is in the block of the point (b, r / 512). -/
theorem cover3 (i : S16x1024x1024.Idx) :
    ∃ t : Fin (cfgM m (ok m)).N, ((cfgM m (ok m)).win 3).flush t = true ∧ i ∈ (((cfgM m (ok m)).win 3).blk t).view.set := by
  have h0 : (i 0).val < 16 := (i 0).isLt
  have h1 : (i 1).val < 1024 := (i 1).isLt
  have h2 : (i 2).val < 1024 := (i 2).isLt
  obtain ⟨t, hb, hh⟩ := point_onto ⟨(i 0).val, h0⟩ ⟨(i 1).val / 512, by omega⟩
  obtain ⟨-, -, -, -, -, -, -, -, c0, c1, c2, -⟩ := point_facts t
  have eb : (batchOf t).val = (i 0).val := congrArg Fin.val hb
  have eh : (halfOf t).val = (i 1).val / 512 := congrArg Fin.val hh
  refine ⟨t, flush0_3 (adm m (ok m)) t, ?_⟩
  rw [mem_blk3]
  intro a
  match a with
  | ⟨0, _⟩ => show cc0_transform_3 (grid0.coords t) (0 : Fin 3) * 1 ≤ (i 0).val ∧ (i 0).val < cc0_transform_3 (grid0.coords t) (0 : Fin 3) * 1 + 1; omega
  | ⟨1, _⟩ => show cc0_transform_3 (grid0.coords t) (1 : Fin 3) * 512 ≤ (i 1).val ∧ (i 1).val < cc0_transform_3 (grid0.coords t) (1 : Fin 3) * 512 + 512; omega
  | ⟨2, _⟩ => show cc0_transform_3 (grid0.coords t) (2 : Fin 3) * 1024 ≤ (i 2).val ∧ (i 2).val < cc0_transform_3 (grid0.coords t) (2 : Fin 3) * 1024 + 1024; omega

/-- The same for the weights array. -/
theorem cover4 (i : S16x1024x1024.Idx) :
    ∃ t : Fin (cfgM m (ok m)).N, ((cfgM m (ok m)).win 4).flush t = true ∧ i ∈ (((cfgM m (ok m)).win 4).blk t).view.set := by
  have h0 : (i 0).val < 16 := (i 0).isLt
  have h1 : (i 1).val < 1024 := (i 1).isLt
  have h2 : (i 2).val < 1024 := (i 2).isLt
  obtain ⟨t, hb, hh⟩ := point_onto ⟨(i 0).val, h0⟩ ⟨(i 1).val / 512, by omega⟩
  obtain ⟨-, -, -, -, -, -, -, -, -, -, -, a0, a1, a2, -⟩ := point_facts t
  have eb : (batchOf t).val = (i 0).val := congrArg Fin.val hb
  have eh : (halfOf t).val = (i 1).val / 512 := congrArg Fin.val hh
  refine ⟨t, flush0_4 (adm m (ok m)) t, ?_⟩
  rw [mem_blk4]
  intro a
  match a with
  | ⟨0, _⟩ => show cc0_transform_4 (grid0.coords t) (0 : Fin 3) * 1 ≤ (i 0).val ∧ (i 0).val < cc0_transform_4 (grid0.coords t) (0 : Fin 3) * 1 + 1; omega
  | ⟨1, _⟩ => show cc0_transform_4 (grid0.coords t) (1 : Fin 3) * 512 ≤ (i 1).val ∧ (i 1).val < cc0_transform_4 (grid0.coords t) (1 : Fin 3) * 512 + 512; omega
  | ⟨2, _⟩ => show cc0_transform_4 (grid0.coords t) (2 : Fin 3) * 1024 ≤ (i 2).val ∧ (i 2).val < cc0_transform_4 (grid0.coords t) (2 : Fin 3) * 1024 + 1024; omega

/-! ## The arrays after the run -/

/-- The context array ends holding the context vectors. -/
theorem final_context (c : Dev nD) : (dats m (ok m) 0 c).arrAt 3 (cfgM m (ok m)).N = contextOf m c :=
  (dats m (ok m) 0 c).arrAt_eq_of_cover 3 (contextOf m c) (fun t _ => flushed_context m c t) (cover3 m)

/-- The weights array ends holding the attention weights. -/
theorem final_weights (c : Dev nD) : (dats m (ok m) 0 c).arrAt 4 (cfgM m (ok m)).N = weightsOf m c :=
  (dats m (ok m) 0 c).arrAt_eq_of_cover 4 (weightsOf m c) (fun t _ => flushed_weights m c t) (cover4 m)

/-- The run, read: every weakly fair execution ends with the two result arrays at the context vectors and the
    attention weights of the argument arrays, and the arguments unchanged. -/
theorem run : θ_run defs (onTc (τ := τ) (main (F := Ideal))) ⟨m, fun _ => 0, ρ⟩ fun r => ∀ c : Dev nD,
      r.2.mem ((c.tc : Thread nD τ).loc main_v1_0) = contextOf m c
      ∧ r.2.mem ((c.tc : Thread nD τ).loc main_v1_1) = weightsOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 3).trans (final_context m c), ((h c).1 4).trans (final_weights m c),
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩)
    (run_main m ρ (ok m))

end Cert.KernelIdeal.Arrays

end
-- ==== Proof.LibRowsRank3.lean ====
/-
  A kernel's vector operations on a block of shape [m, a, b] (m stacked matrices of a rows and b columns) read at an
  index, at the extended reals: the sum and the maximum of each row (a reduction over the last axis, the kernel's and the host's), a matrix of row
  values [m, a] viewed as a stack of columns [m, a, 1], and such a column stack broadcast along the rows to [m, a, b].
  Stated for any extents m, a, b.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibRowsRank3

open Idealize.ShloMosaic Idealize.ShloMosaic.ValueIdx

/-- The row index (u, p) with the column coordinate k inserted on the last axis is (u, p, k). -/
theorem lift_last {m a b : ℕ} (h : (⟨3, ![m, a, b]⟩ : Shape).Reduces [2] ⟨2, ![m, a]⟩) (u : Fin m) (p : Fin a) (k : Fin b) :
    h.lift (ix2 u p) k = ix3 u p k := by
  funext c
  match c with
  | ⟨0, _⟩ => exact Fin.ext rfl
  | ⟨1, _⟩ => exact Fin.ext rfl
  | ⟨2, _⟩ => exact Fin.ext rfl

/-- The sum over the last axis of an [m, a, b] block, read at row (u, p): the sum of the row's b entries. -/
theorem multiReduction_add_last_apply {m a b : ℕ} {φ : FTy} (src : FVec Ideal ⟨3, ![m, a, b]⟩ φ) (acc : BitVec φ.bits)
    (h : (⟨3, ![m, a, b]⟩ : Shape).Reduces [2] ⟨2, ![m, a]⟩) (hφ : FKind.Formats φ) (hacc : acc = FKind.add.neutral φ hφ)
    (u : Fin m) (p : Fin a) :
    multiReduction .add [2] ⟨2, ![m, a]⟩ src acc h hφ hacc (ix2 u p) = ∑ k : Fin b, src (ix3 u p k) := by
  -- a reduction over one axis is the sum over that axis's coordinates of the source at the index with the coordinate inserted
  refine (Ideal.multiReduction_add_single src acc h hφ hacc (ix2 u p)).trans ?_
  show ∑ k : Fin b, src (h.lift (ix2 u p) k) = ∑ k : Fin b, src (ix3 u p k)
  exact Finset.sum_congr rfl fun k _ => congrArg src (lift_last h u p k)

/-- The maximum over the last axis of an [m, a, b] block, read at row (u, p): the fold of `max`, from the value the
    accumulator's pattern denotes, over the row's b entries. -/
theorem multiReduction_max_last_apply {m a b : ℕ} {φ : FTy} (src : FVec Ideal ⟨3, ![m, a, b]⟩ φ) (acc : BitVec φ.bits)
    (h : (⟨3, ![m, a, b]⟩ : Shape).Reduces [2] ⟨2, ![m, a]⟩) (hφ : FKind.Formats φ) (hacc : acc = FKind.maximumf.neutral φ hφ)
    (u : Fin m) (p : Fin a) :
    multiReduction .maximumf [2] ⟨2, ![m, a]⟩ src acc h hφ hacc (ix2 u p)
      = (Finset.univ : Finset (Fin b)).fold max (Ideal.ofBits φ acc) (fun k => src (ix3 u p k)) := by
  refine (Ideal.multiReduction_maximumf_single src acc h hφ hacc (ix2 u p)).trans ?_
  show (Finset.univ : Finset (Fin b)).fold max (Ideal.ofBits φ acc) (src ∘ h.lift (ix2 u p)) = _
  exact congrArg (fun f => Finset.fold max (Ideal.ofBits φ acc) f (Finset.univ : Finset (Fin b)))
    (funext fun k => congrArg src (lift_last h u p k))

/-- The host's reduction with a maximum body over the last axis of an [m, a, b] array, read at row (u, p): the fold of
    `max`, from the initial value, over the row's b entries. -/
theorem hostReduce_max_last_apply {m a b : ℕ} {φ : FTy} (x : FVec Ideal ⟨3, ![m, a, b]⟩ φ) (init : FVec Ideal ⟨0, ![]⟩ φ)
    (h' : (⟨3, ![m, a, b]⟩ : Shape).ReducesTo [2] ⟨2, ![m, a]⟩) (h : (⟨3, ![m, a, b]⟩ : Shape).Reduces [2] ⟨2, ![m, a]⟩)
    (hu : 0 < (⟨0, ![]⟩ : Shape).numel) (u : Fin m) (p : Fin a) :
    Host.reduce FloatOps.maximumf x init h' hu (ix2 u p)
      = (Finset.univ : Finset (Fin b)).fold max (init (Shape.Idx.first hu)) (fun k => x (ix3 u p k)) := by
  rw [Host.reduce_eq_fold_single FloatOps.maximumf x init h' h hu]
  exact congrArg (fun f => Finset.fold max (init (Shape.Idx.first hu)) f (Finset.univ : Finset (Fin b)))
    (funext fun k => congrArg x (lift_last h u p k))

/-- A matrix stack [m, a] of row values viewed as a stack of columns [m, a, 1] reads the row's value. -/
theorem shapeCast_col_apply {m a : ℕ} {α : Type} (v : (⟨2, ![m, a]⟩ : Shape).Idx → α)
    (h : (⟨2, ![m, a]⟩ : Shape).ShapeCasts ⟨3, ![m, a, 1]⟩) (u : Fin m) (p : Fin a) (z : Fin 1) :
    shapeCast ⟨3, ![m, a, 1]⟩ v h (ix3 u p z) = v (ix2 u p) :=
  -- both indices have the row-major position u * a + p
  shapeCast_apply v h _ _ (by
    have hz : z.val = 0 := by omega
    rw [Shape.rowMajor_val_two, Shape.rowMajor_val_three]
    show u.val * a + p.val = (u.val * a + p.val) * 1 + z.val
    rw [hz, Nat.mul_one, Nat.add_zero])

/-- A stack of columns [m, a, 1] broadcast along the rows to [m, a, b] reads the row's column entry. -/
theorem broadcastTo_col_apply {m a b : ℕ} {α : Type} (v : (⟨3, ![m, a, 1]⟩ : Shape).Idx → α)
    (h : (⟨3, ![m, a, 1]⟩ : Shape).Broadcasts ⟨3, ![m, a, b]⟩) (u : Fin m) (p : Fin a) (k : Fin b) :
    broadcastTo ⟨3, ![m, a, b]⟩ v h (ix3 u p k) = v (ix3 u p (0 : Fin 1)) := by
  -- the two leading axes keep their coordinates (which are 0 anyway where the extent is 1); the unit axis reads 0
  refine broadcastTo_apply v h (ix3 u p k) (ix3 u p (0 : Fin 1)) fun ax => ?_
  match ax with
  | ⟨0, _⟩ =>
    show u.val = if m = 1 then 0 else u.val
    split
    · have := u.isLt; omega
    · rfl
  | ⟨1, _⟩ =>
    show p.val = if a = 1 then 0 else p.val
    split
    · have := p.isLt; omega
    · rfl
  | ⟨2, _⟩ => rfl

end Cert.LibRowsRank3

end
-- ==== Proof.RefRows.lean ====
/-
  The reference's operations read at an index, at the extended reals: its weights array and its context array are
  the row definitions of masked softmax attention, entry by entry.

  The reference is two contractions (query rows against the weights' rows, then against the batch's keys), a mask
  from a key counter compared with the batch's length, the row maximum (a fold from -∞, then once more against
  -∞, which changes nothing), the exponentials, their row sum from zero, the quotient, and a last contraction
  with the batch's memory.
-/
import proofs.«414034_j39633958207554_2_alg».proof.Proof.Gen.ReferenceIdeal.Read
import proofs.«414034_j39633958207554_2_alg».proof.Proof.Attention
import proofs.«414034_j39633958207554_2_alg».proof.Proof.LibRowsRank3

noncomputable section

open scoped BigOperators

namespace Cert.ReferenceIdeal.Rows

open Cert.ReferenceIdeal Cert.ReferenceIdeal.Gen Cert.ReferenceIdeal.Read Idealize.ShloMosaic Idealize.ShloMosaic.ValueIdx Cert.Attention

variable (Q M : (⟨S16x1024x1024, .f32⟩ : BufTy).Contents (Elt Ideal)) (L : (⟨S16, .i32⟩ : BufTy).Contents (Elt Ideal))
  (W : (⟨S1024x1024, .f32⟩ : BufTy).Contents (Elt Ideal))

/-- Query row r of batch b. -/
abbrev qrow (b : Fin 16) (r : Fin 1024) : Fin 1024 → EReal := fun k => Q (ix3 b r k)
/-- The memory matrix of batch b. -/
abbrev mem (b : Fin 16) : Fin 1024 → Fin 1024 → EReal := fun s j => M (ix3 b s j)
/-- The weight matrix. -/
abbrev wts : Fin 1024 → Fin 1024 → EReal := fun j k => W (ix2 j k)

/-- The first contraction: the projected query row. -/
theorem proj_apply (b : Fin 16) (r j : Fin 1024) :
    val_main_v0 (F := Ideal) Q W (ix3 b r j) = projRow (qrow Q b r) (wts W) j := by
  rw [val_main_v0_apply]
  unfold projRow
  refine Finset.sum_congr rfl fun k _ => ?_
  have el : lidx_main_v0 (ix3 b r j) k = ix3 b r k := funext fun a => Fin.ext (by
    match a with | ⟨0, _⟩ => rfl | ⟨1, _⟩ => rfl | ⟨2, _⟩ => rfl)
  have er : ridx_main_v0 (ix3 b r j) k = ix2 j k := funext fun a => Fin.ext (by
    match a with | ⟨0, _⟩ => rfl | ⟨1, _⟩ => rfl)
  rw [el, er]

/-- The second contraction: the scores. -/
theorem score_apply (b : Fin 16) (r s : Fin 1024) :
    val_main_v1 (F := Ideal) Q M W (ix3 b r s) = scoreRow (qrow Q b r) (mem M b) (wts W) s := by
  rw [val_main_v1_apply]
  unfold scoreRow
  refine Finset.sum_congr rfl fun k _ => ?_
  have el : lidx_main_v1 (ix3 b r s) k = ix3 b r k := funext fun a => Fin.ext (by
    match a with | ⟨0, _⟩ => rfl | ⟨1, _⟩ => rfl | ⟨2, _⟩ => rfl)
  have er : ridx_main_v1 (ix3 b r s) k = ix3 b s k := funext fun a => Fin.ext (by
    match a with | ⟨0, _⟩ => rfl | ⟨1, _⟩ => rfl | ⟨2, _⟩ => rfl)
  rw [el, er, proj_apply]

/-- The mask: key s is kept when s is below the batch's length, as signed words. -/
theorem mask_apply (b : Fin 16) (r s : Fin 1024) :
    val_main_call0_v1 (F := Ideal) L (ix3 b r s) = IntOp.cmpi .slt (BitVec.ofNat 32 s.val) (L (ix1 b)) := by
  rw [val_main_call0_v1_apply, val_main_v8_apply, val_main_v7_apply, val_main_v5_apply, val_main_v3_apply, val_main_v2_apply,
    val_main_v6_apply, val_main_v4_apply]
  show IntOp.cmpi .slt (BitVec.ofNat 32 s.val) (L _) = _
  refine congrArg (IntOp.cmpi .slt (BitVec.ofNat 32 s.val)) (congrArg L ?_)
  funext a
  match a with | ⟨0, _⟩ => rfl

/-- The fill value is -∞. -/
theorem fill_apply (i : S16x1024x1024.Idx) : val_main_call0_v2 (F := Ideal) i = (⊥ : EReal) := by
  rw [val_main_call0_v2_apply, val_main_call0_v0_apply, val_main_cst_apply]
  exact negInf_f32

/-- The masked scores. -/
theorem masked_apply (b : Fin 16) (r s : Fin 1024) :
    val_main_v9 (F := Ideal) Q M L W (ix3 b r s) = maskedRow (qrow Q b r) (mem M b) (wts W) (L (ix1 b)) s := by
  rw [val_main_v9_apply, mask_apply, fill_apply, score_apply]
  rfl

/-- The row maximum: the fold from -∞ over the keys, and -∞ once more against it. -/
theorem max_apply (b : Fin 16) (r : Fin 1024) :
    val_main_v12 (F := Ideal) Q M L W (ix2 b r) = rowMax (maskedRow (qrow Q b r) (mem M b) (wts W) (L (ix1 b))) := by
  rw [val_main_v12_apply, val_main_v11_apply, val_main_cst_1_apply]
  show max (Ideal.ofBits .f32 0xFF800000#32) (val_main_v10 (F := Ideal) Q M L W (ix2 b r)) = _
  rw [negInf_f32, max_bot_left]
  unfold val_main_v10
  rw [LibRowsRank3.hostReduce_max_last_apply _ _ reducesTo_S16x1024x1024_S16x1024_d2 (by decide) h_S_ b r, val_main_cst_0_apply]
  show (Finset.univ : Finset (Fin 1024)).fold max (Ideal.ofBits .f32 0xFF800000#32) _ = _
  rw [negInf_f32]
  unfold rowMax
  exact congrArg (fun f => Finset.fold max (⊥ : EReal) f (Finset.univ : Finset (Fin 1024))) (funext fun k => masked_apply Q M L W b r k)

/-- The exponentials. -/
theorem exp_apply (b : Fin 16) (r s : Fin 1024) :
    val_main_v16 (F := Ideal) Q M L W (ix3 b r s)
      = Ideal.exp (maskedRow (qrow Q b r) (mem M b) (wts W) (L (ix1 b)) s - rowMax (maskedRow (qrow Q b r) (mem M b) (wts W) (L (ix1 b)))) := by
  rw [val_main_v16_apply, val_main_v15_apply, val_main_v14_apply, val_main_v13_apply]
  have e : idx_main_v13 (idx_main_v14 (ix3 b r s)) = ix2 b r := funext fun a => Fin.ext (by
    match a with | ⟨0, _⟩ => rfl | ⟨1, _⟩ => rfl)
  rw [e, max_apply, masked_apply]
  rfl

/-- The row sums of the exponentials, from zero. -/
theorem sum_apply (b : Fin 16) (r : Fin 1024) :
    val_main_v17 (F := Ideal) Q M L W (ix2 b r)
      = ∑ k : Fin 1024, Ideal.exp (maskedRow (qrow Q b r) (mem M b) (wts W) (L (ix1 b)) k - rowMax (maskedRow (qrow Q b r) (mem M b) (wts W) (L (ix1 b)))) := by
  rw [val_main_v17_apply, val_main_cst_2_apply]
  show Ideal.ofBits .f32 0x00000000#32 + _ = _
  rw [Ideal.ofBits_zero_f32, zero_add]
  refine Finset.sum_congr rfl fun k _ => ?_
  have e : idx_main_v17 (ix2 b r) k = ix3 b r k := funext fun a => Fin.ext (by
    match a with | ⟨0, _⟩ => rfl | ⟨1, _⟩ => rfl | ⟨2, _⟩ => rfl)
  rw [e, exp_apply]

/-- The weights. -/
theorem weight_apply (b : Fin 16) (r s : Fin 1024) :
    val_main_v20 (F := Ideal) Q M L W (ix3 b r s) = weightRow (qrow Q b r) (mem M b) (wts W) (L (ix1 b)) s := by
  rw [val_main_v20_apply, val_main_v19_apply, val_main_v18_apply]
  have e : idx_main_v18 (idx_main_v19 (ix3 b r s)) = ix2 b r := funext fun a => Fin.ext (by
    match a with | ⟨0, _⟩ => rfl | ⟨1, _⟩ => rfl)
  rw [e, sum_apply, exp_apply]
  rfl

/-- The last contraction: the context vectors. -/
theorem context_apply (b : Fin 16) (r j : Fin 1024) :
    val_main_v21 (F := Ideal) Q M L W (ix3 b r j) = contextRow (qrow Q b r) (mem M b) (wts W) (L (ix1 b)) j := by
  rw [val_main_v21_apply]
  unfold contextRow
  refine Finset.sum_congr rfl fun k _ => ?_
  have el : lidx_main_v21 (ix3 b r j) k = ix3 b r k := funext fun a => Fin.ext (by
    match a with | ⟨0, _⟩ => rfl | ⟨1, _⟩ => rfl | ⟨2, _⟩ => rfl)
  have er : ridx_main_v21 (ix3 b r j) k = ix3 b k j := funext fun a => Fin.ext (by
    match a with | ⟨0, _⟩ => rfl | ⟨1, _⟩ => rfl | ⟨2, _⟩ => rfl)
  rw [el, er, weight_apply]

/-- The reference's weights array is the attention weights. -/
theorem weights_eq : val_main_v20 (F := Ideal) Q M L W = weightsArr Q M L W := by
  funext i
  rw [eq_ix3 i]
  exact weight_apply Q M L W (i 0) (i 1) (i 2)

/-- The reference's context array is the context vectors. -/
theorem context_eq : val_main_v21 (F := Ideal) Q M L W = contextArr Q M L W := by
  funext i
  rw [eq_ix3 i]
  exact context_apply Q M L W (i 0) (i 1) (i 2)

end Cert.ReferenceIdeal.Rows

end
-- ==== Proof.lean ====
/-
  Luong "general" attention with a length mask, 16 batches of 1024 query rows, 1024 keys and 1024 features: the
  kernel (one launch over a 16 × 2 grid, each point 512 query rows of one batch) against the plain reference.

  Both programs compute, for every query row, the projected row (query row against the weights), its scores
  against the batch's keys, the scores masked to -∞ from the batch's length on, the softmax of the masked row,
  and the weights' average of the batch's memory. They do so with the same operations in the same order —
  the kernel's three matrix products are the reference's three contractions, its row maximum and row sum the
  reference's two reductions, its finite fill value is named -∞ — so over the extended reals the two results
  are equal entry by entry, by matching definitions, with no algebraic law and no use of the inputs' finiteness;
  an all-masked row (a non-positive length) gives the same value on both sides, whatever that value is.

  The frames of the two kernel programs are the generated ones (no index map reads the length table, so their
  side condition on it is empty); the reference's frame is its generated run with the results dropped.
-/
import proofs.«414034_j39633958207554_2_alg».proof.Defs
import proofs.«414034_j39633958207554_2_alg».proof.Proof.Gen.Kernel
import proofs.«414034_j39633958207554_2_alg».proof.Proof.Gen.Kernel.Skeleton
import proofs.«414034_j39633958207554_2_alg».proof.Proof.Gen.Kernel.Launch
import proofs.«414034_j39633958207554_2_alg».proof.Proof.Gen.Kernel.Points
import proofs.«414034_j39633958207554_2_alg».proof.Proof.Gen.Kernel.Frame
import proofs.«414034_j39633958207554_2_alg».proof.Proof.Gen.KernelIdeal
import proofs.«414034_j39633958207554_2_alg».proof.Proof.Gen.KernelIdeal.Skeleton
import proofs.«414034_j39633958207554_2_alg».proof.Proof.Gen.KernelIdeal.Launch
import proofs.«414034_j39633958207554_2_alg».proof.Proof.Gen.KernelIdeal.Points
import proofs.«414034_j39633958207554_2_alg».proof.Proof.Gen.KernelIdeal.Frame
import proofs.«414034_j39633958207554_2_alg».proof.Proof.Gen.ReferenceIdeal
import proofs.«414034_j39633958207554_2_alg».proof.Proof.Gen.Pre_finite_inputs
import proofs.«414034_j39633958207554_2_alg».proof.Proof.Gen.ReferenceIdeal.Run
import proofs.«414034_j39633958207554_2_alg».proof.Proof.Gen.ReferenceIdeal.Read
import proofs.«414034_j39633958207554_2_alg».proof.Proof.KernelArrays
import proofs.«414034_j39633958207554_2_alg».proof.Proof.RefRows
import Idealize.ShloMosaic.Adequacy
import Idealize.ShloMosaic.Init

noncomputable section

namespace Cert.Proof

open Idealize.ShloMosaic Idealize.SL.Sem

/-- The word-level kernel runs and leaves its arguments unchanged: the generated frame, whose side condition on
    the length table is empty. -/
theorem frame_kernel : Cert.frame_Kernel := fun m ρ _ =>
  Cert.Kernel.Gen.frame m ρ (Eq.mpr (Cert.Kernel.ok0.eq_1 (F := Bits) (Cert.Kernel.Gen.tbl m)) trivial)

/-- The idealized kernel likewise. -/
theorem frame_kernelIdeal : Cert.frame_KernelIdeal := fun m ρ _ =>
  Cert.KernelIdeal.Gen.frame m ρ (Cert.KernelIdeal.Arrays.ok m)

/-- The reference runs and leaves its arguments unchanged: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The one rewrite of the idealization: the kernel's finite fill value is named -∞. -/
theorem preserves : Cert.preserves_Kernel_KernelIdeal :=
  IdealRules.named_const.statement Cert.KernelIdeal.κ "neg_big" .f32 0xF149F2CA#32 ⊥ rfl

/-- Over the extended reals both programs end with the context vectors and the attention weights of the
    (agreeing) argument arrays. -/
theorem algebraic : Cert.algebraic_KernelIdeal_ReferenceIdeal := by
  intro m ρ m' ρ' _ hagree
  refine ⟨fun c => Cert.KernelIdeal.Arrays.contextOf m c, fun c => Cert.KernelIdeal.Arrays.weightsOf m c,
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v21_eq, Cert.ReferenceIdeal.Rows.context_eq, (hagree c).1, (hagree c).2.1,
      (hagree c).2.2.1, (hagree c).2.2.2]
  · rw [Cert.ReferenceIdeal.Read.val_main_v20_eq, Cert.ReferenceIdeal.Rows.weights_eq, (hagree c).1, (hagree c).2.1,
      (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
